-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel

variable [Facts]

def fn {F : FTy → Type} [FloatOps F] (main_arg0 : FVec F S16x3x256x256 .f32) (main_arg1 : FVec F S16x3x256x256 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S16x3x256x256 .f32 := Host.absf main_arg1
  let main_cst_0 : FVec F S_ .f32 := constant S_ .f32 0x7F800000#32
  let main_v5 : FVec F S16x3x256x256 .f32 := broadcastInDim S16x3x256x256 ![] bcast_S_S16x3x256x256 main_cst_0
  let main_v6 : IVec S16x3x256x256 1 := cmpf .olt main_v4 main_v5
  let main_c_1 : IVec S_ 1 := constantI S_ 1 1#1
  let main_v7 : IVec S_ 1 := (fun x v => Host.reduce IntOp.andi x v reducesTo_S16x3x256x256_S_d0_1_2_3 h_S_) main_v6 main_c_1
  let main_v8 : IVec S_ 1 := andi main_v3 main_v7
  main_v8
-- ==== Kernel.lean ====
abbrev S16x3x256x256 : Shape := ⟨4, ![16, 3, 256, 256]⟩
abbrev S3145728 : Shape := ⟨1, ![3145728]⟩
abbrev S24576x128 : Shape := ⟨2, ![24576, 128]⟩
abbrev S12x8x128 : Shape := ⟨3, ![12, 8, 128]⟩
abbrev S2048x128 : Shape := ⟨2, ![2048, 128]⟩
abbrev S1x8x128 : Shape := ⟨3, ![1, 8, 128]⟩
abbrev S256x8x128 : Shape := ⟨3, ![256, 8, 128]⟩
abbrev S8x128 : Shape := ⟨2, ![8, 128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S3145728, .f32⟩
  | .hbm, ⟨3, _⟩ => ⟨S3145728, .f32⟩
  | .hbm, ⟨4, _⟩ => ⟨S24576x128, .f32⟩
  | .hbm, ⟨5, _⟩ => ⟨S24576x128, .f32⟩
  | .hbm, ⟨6, _⟩ => ⟨S12x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x8x128, .f32⟩
  | .local _ .vmem, ⟨5, _⟩ => ⟨S1x8x128, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x3x256x256_S3145728 : S16x3x256x256.ShapeCasts S3145728
  shapeCasts_S3145728_S24576x128 : S3145728.ShapeCasts S24576x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S256x8x128 : S2048x128.ShapeCasts S256x8x128
  reduces_S256x8x128_S8x128 : S256x8x128.Reduces [0] S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S12x8x128_S_d0_1_2 : S12x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S24576x128.size a
  hwx0_0 : ∀ i : grid0.Coords, EltTy.bits .f32 = 32 ∨ (Rect.block (s := S24576x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S24576x128.size a
  hwx0_1 : ∀ i : grid0.Coords, EltTy.bits .f32 = 32 ∨ (Rect.block (s := S24576x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S12x8x128.size a
  hwx0_2 : ∀ i : grid0.Coords, EltTy.bits .f32 = 32 ∨ (Rect.block (s := S12x8x128) S1x8x128.size (cc0_transform_2 i) (hinb0_2 i)).WholeWords (EltTy.packing .f32)

variable [Facts₀]

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S3145728 : Shape := ⟨1, ![3145728]⟩
abbrev S24576x128 : Shape := ⟨2, ![24576, 128]⟩
abbrev S16x128 : Shape := ⟨2, ![16, 128]⟩
abbrev S4096x128 : Shape := ⟨2, ![4096, 128]⟩
abbrev S8x128 : Shape := ⟨2, ![8, 128]⟩
abbrev S512x8x128 : Shape := ⟨3, ![512, 8, 128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S3145728, .f32⟩
  | .hbm, ⟨3, _⟩ => ⟨S3145728, .f32⟩
  | .hbm, ⟨4, _⟩ => ⟨S24576x128, .f32⟩
  | .hbm, ⟨5, _⟩ => ⟨S24576x128, .f32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg1 : BitVec 32 := BitVec.ofNat 32 (i 1).val
  let c0_i32_5 : BitVec 32 := 0#32
  let v14 : BitVec 1 := Scalar.cmpi .sgt arg1 c0_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x3x256x256_S3145728 : S16x3x256x256.ShapeCasts S3145728
  shapeCasts_S3145728_S24576x128 : S3145728.ShapeCasts S24576x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4096x128_S512x8x128 : S4096x128.ShapeCasts S512x8x128
  reduces_S512x8x128_S8x128 : S512x8x128.Reduces [0] S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S24576x128.size a
  hwx0_0 : ∀ i : grid0.Coords, EltTy.bits .f32 = 32 ∨ (Rect.block (s := S24576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S24576x128.size a
  hwx0_1 : ∀ i : grid0.Coords, EltTy.bits .f32 = 32 ∨ (Rect.block (s := S24576x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== Proof.Err.lean ====
/-
  The mathematics both programs share.  Each computes the mean of the Charbonnier terms
  `sqrt ((x - y)^2 + eps)` over all 24576 * 128 elements of the two inputs laid out as
  24576 rows of 128 lanes: a sum of per-row-group partial sums, then one division by the
  element count.  Here: the one-element term `term`, the grand total `total`, and the last two
  host steps (a sum over every axis from a zero initial value, then a quotient by a constant)
  read as the plain sum of the operand.
-/
import Idealize.ShloMosaic.PureOps.Ideal
import Idealize.ShloMosaic.PureOps.Ideal.Laws
import Idealize.ShloMosaic.Lib.ValueIdx

noncomputable section

namespace Cert.Charb

open Idealize.ShloMosaic Idealize.ShloMosaic.ValueIdx

/-- The rows-by-lanes layout of either input. -/
abbrev Rows : Shape := ⟨2, ![24576, 128]⟩
/-- A scalar. -/
abbrev Sc : Shape := ⟨0, ![]⟩

/-- One element's term: `sqrt ((a - b) * (a - b) + eps)`, `eps` the f32 word both programs carry. -/
def term (a b : Ideal .f32) : Ideal .f32 :=
  FloatOps.sqrt (FloatOps.addf (FloatOps.mulf (FloatOps.subf a b) (FloatOps.subf a b)) (Scalar.ofBits .f32 0x358637BD#32))

/-- The term at row `r`, lane `l` of the two inputs. -/
def termAt (X Y : FVec Ideal Rows .f32) (r : Fin 24576) (l : Fin 128) : Ideal .f32 :=
  term (X (ix2 r l)) (Y (ix2 r l))

/-- The sum of every element's term. -/
def total (X Y : FVec Ideal Rows .f32) : Ideal .f32 := ∑ r : Fin 24576, ∑ l : Fin 128, termAt X Y r l

/-- An input of shape [16, 3, 256, 256] flattened and laid out as 24576 rows of 128 lanes (both programs' two reshapes). -/
def rowsOf (a : FVec Ideal ⟨4, ![16, 3, 256, 256]⟩ .f32) : FVec Ideal Rows .f32 :=
  shapeCast Rows (shapeCast (⟨1, ![3145728]⟩ : Shape) a (by decide)) (by decide)

/-- The mean as both programs end it: the zero initial value plus the total, divided by the f32 word of the count. -/
def mean (T : Ideal .f32) : FVec Ideal Sc .f32 :=
  fun _ => FloatOps.hostDivf (FloatOps.ofBits .f32 0x00000000#32 + T) (FloatOps.ofBits .f32 0x4A400000#32)

/-- A host sum over every axis from the zero constant, then the host quotient by the count's constant, is `mean` of the
    operand's plain sum over all its indices. -/
theorem tail_eq_mean {s : Shape} {axes : List (Fin s.rank)} (P : FVec Ideal s .f32) (h : s.ReducesTo axes Sc) (hu : 0 < Sc.numel) :
    Host.divf (Host.reduceAdd P (constant (F := Ideal) Sc .f32 0x00000000#32) h hu) (constant (F := Ideal) Sc .f32 0x4A400000#32)
      = mean (∑ i : s.Idx, P i) := by
  funext j
  unfold Host.divf Host.reduceAdd mean
  rw [Ideal.hostReduceAdd_def, Ideal.hostReduceAdd_total h (fun b => b.elim0)]
  rfl

end Cert.Charb

end
-- ==== Proof.Sums.lean ====
/-
  Two regroupings of one double sum.  For any `f : rows × lanes → M` in a commutative additive monoid:
  the kernel's partial sums (12 row tiles of 2048 rows, each folded to 8 sublane rows by adding the 256 groups of 8)
  and the reference's (2 halves, each the running sum of 3 tiles of 4096 rows folded to 8 by adding 512 groups)
  both add up to the sum over all 24576 rows and 128 lanes.  Only commutativity and associativity of `+` are used.
-/
import Mathlib.Algebra.BigOperators.Fin
import Mathlib.Logic.Equiv.Fin.Basic
import Idealize.ShloMosaic.Lib.ValueIdx

noncomputable section

namespace Cert.Charb

open Idealize.ShloMosaic Idealize.ShloMosaic.ValueIdx

variable {M : Type*} [AddCommMonoid M]

/-! ## Re-indexing tools -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

/-- Quotient `i < a` and remainder `j < b` name a number below `a * b`. -/
theorem idx_lt {a b n : Nat} (h : a * b = n) (i : Fin a) (j : Fin b) : i.val * b + j.val < n := by
  have hi : i.val + 1 ≤ a := i.isLt
  have hj : j.val < b := j.isLt
  calc i.val * b + j.val < i.val * b + b := Nat.add_lt_add_left hj _
    _ = (i.val + 1) * b := (Nat.succ_mul _ _).symm
    _ ≤ a * b := Nat.mul_le_mul_right b hi
    _ = n := h

/-- A sum over `Fin n` with `n = a * b` is the double sum over quotient and remainder. -/
theorem sum_fin_mul {n : Nat} (a b : Nat) (h : a * b = n) (g : Fin n → M) :
    ∑ i, g i = ∑ i : Fin a, ∑ j : Fin b, g ⟨i.val * b + j.val, idx_lt h i j⟩ := by
  subst h
  rw [← Equiv.sum_comp finProdFinEquiv g, Fintype.sum_prod_type]
  refine Finset.sum_congr rfl fun i _ => Finset.sum_congr rfl fun j _ => ?_
  congr 1
  apply Fin.ext
  simp only [finProdFinEquiv_apply_val]
  rw [Nat.mul_comm, Nat.add_comm]

/-- Moving the innermost of three sums outermost. -/
theorem sum_rot {α β γ : Type*} [Fintype α] [Fintype β] [Fintype γ] (F : α → β → γ → M) :
    ∑ r, ∑ l, ∑ k, F k r l = ∑ k, ∑ r, ∑ l, F k r l :=
  calc ∑ r, ∑ l, ∑ k, F k r l = ∑ r, ∑ k, ∑ l, F k r l :=
        Finset.sum_congr rfl fun _ _ => Finset.sum_comm
    _ = ∑ k, ∑ r, ∑ l, F k r l := Finset.sum_comm

/-- The kernel's tile `t`, sublane `r`, lane `l`: the 256 rows `t * 2048 + k * 8 + r`. -/
def foldK (f : Fin 24576 → Fin 128 → M) (t : Fin 12) (r : Fin 8) (l : Fin 128) : M :=
  ∑ k : Fin 256, f ⟨t.val * 2048 + k.val * 8 + r.val, by omega⟩ l

/-- The reference's tile `b` (of 6), sublane `r`, lane `l`: the 512 rows `b * 4096 + k * 8 + r`. -/
def foldR (f : Fin 24576 → Fin 128 → M) (b : Fin 6) (r : Fin 8) (l : Fin 128) : M :=
  ∑ k : Fin 512, f ⟨b.val * 4096 + k.val * 8 + r.val, by omega⟩ l

/-- The kernel's partial sums of tile `t` add up to the tile's 2048 rows (all lanes). -/
theorem sum_foldK_tile (f : Fin 24576 → Fin 128 → M) (t : Fin 12) :
    ∑ r : Fin 8, ∑ l : Fin 128, foldK f t r l
      = ∑ u : Fin 2048, ∑ l : Fin 128, f ⟨t.val * 2048 + u.val, by omega⟩ l := by
  rw [sum_fin_mul 256 8 rfl (fun u : Fin 2048 => ∑ l : Fin 128, f ⟨t.val * 2048 + u.val, by omega⟩ l)]
  unfold foldK
  rw [sum_rot]
  refine Finset.sum_congr rfl fun k _ => Finset.sum_congr rfl fun r _ => Finset.sum_congr rfl fun l _ => ?_
  congr 1
  apply Fin.ext
  show t.val * 2048 + k.val * 8 + r.val = t.val * 2048 + (k.val * 8 + r.val)
  omega

/-- The reference's partial sums of tile `b` add up to the tile's 4096 rows (all lanes). -/
theorem sum_foldR_tile (f : Fin 24576 → Fin 128 → M) (b : Fin 6) :
    ∑ r : Fin 8, ∑ l : Fin 128, foldR f b r l
      = ∑ u : Fin 4096, ∑ l : Fin 128, f ⟨b.val * 4096 + u.val, by omega⟩ l := by
  rw [sum_fin_mul 512 8 rfl (fun u : Fin 4096 => ∑ l : Fin 128, f ⟨b.val * 4096 + u.val, by omega⟩ l)]
  unfold foldR
  rw [sum_rot]
  refine Finset.sum_congr rfl fun k _ => Finset.sum_congr rfl fun r _ => Finset.sum_congr rfl fun l _ => ?_
  congr 1
  apply Fin.ext
  show b.val * 4096 + k.val * 8 + r.val = b.val * 4096 + (k.val * 8 + r.val)
  omega

/-- An array over [12, 8, 128] holding the kernel's partial sums adds up to the whole double sum. -/
theorem sum_foldK (f : Fin 24576 → Fin 128 → M) (P : (⟨3, ![12, 8, 128]⟩ : Shape).Idx → M)
    (hP : ∀ (t : Fin 12) (r : Fin 8) (l : Fin 128), P (ix3 t r l) = foldK f t r l) :
    ∑ i, P i = ∑ r : Fin 24576, ∑ l : Fin 128, f r l := by
  rw [sum_idx3 P, sum_fin_mul 12 2048 rfl (fun r : Fin 24576 => ∑ l : Fin 128, f r l)]
  refine Finset.sum_congr rfl fun t _ => ?_
  refine Eq.trans ?_ (sum_foldK_tile f t)
  exact Finset.sum_congr rfl fun r _ => Finset.sum_congr rfl fun l _ => hP t r l

/-- An array over [16, 128] whose row `s * 8 + r` holds the running sum of half `s`'s three tiles adds up to the whole
    double sum. -/
theorem sum_foldR (f : Fin 24576 → Fin 128 → M) (Q : (⟨2, ![16, 128]⟩ : Shape).Idx → M)
    (hQ : ∀ (s : Fin 2) (r : Fin 8) (l : Fin 128),
      Q (ix2 (⟨s.val * 8 + r.val, by omega⟩ : Fin 16) l)
        = (foldR f ⟨3 * s.val, by omega⟩ r l + foldR f ⟨3 * s.val + 1, by omega⟩ r l) + foldR f ⟨3 * s.val + 2, by omega⟩ r l) :
    ∑ i, Q i = ∑ r : Fin 24576, ∑ l : Fin 128, f r l := by
  rw [sum_idx2 Q, sum_fin_mul 2 8 rfl (fun a : Fin 16 => ∑ l : Fin 128, Q (ix2 a l)),
    sum_fin_mul 6 4096 rfl (fun r : Fin 24576 => ∑ l : Fin 128, f r l)]
  rw [sum_fin_mul 2 3 rfl (fun b : Fin 6 => ∑ u : Fin 4096, ∑ l : Fin 128, f ⟨b.val * 4096 + u.val, idx_lt rfl b u⟩ l)]
  refine Finset.sum_congr rfl fun s _ => ?_
  rw [Fin.sum_univ_three]
  have e0 : (⟨s.val * 3 + (0 : Fin 3).val, idx_lt rfl s 0⟩ : Fin 6) = ⟨3 * s.val, by omega⟩ :=
    Fin.ext (by show s.val * 3 + 0 = 3 * s.val; omega)
  have e1 : (⟨s.val * 3 + (1 : Fin 3).val, idx_lt rfl s 1⟩ : Fin 6) = ⟨3 * s.val + 1, by omega⟩ :=
    Fin.ext (by show s.val * 3 + 1 = 3 * s.val + 1; omega)
  have e2 : (⟨s.val * 3 + (2 : Fin 3).val, idx_lt rfl s 2⟩ : Fin 6) = ⟨3 * s.val + 2, by omega⟩ :=
    Fin.ext (by show s.val * 3 + 2 = 3 * s.val + 2; omega)
  rw [e0, e1, e2]
  refine Eq.trans ?_ (congrArg₂ (· + ·) (congrArg₂ (· + ·) (sum_foldR_tile f _) (sum_foldR_tile f _))
    (sum_foldR_tile f _))
  simp only [← Finset.sum_add_distrib]
  exact Finset.sum_congr rfl fun r _ => Finset.sum_congr rfl fun l _ => hQ s r l

end Cert.Charb

end
-- ==== Proof.KValue.lean ====
/-
  The kernel's result.  Tile `t` of the grid reads rows `t * 2048 .. t * 2048 + 2047` of both inputs and writes block `t`
  of a [12, 8, 128] array: at sublane `r`, lane `l` the sum over the 256 groups `k` of the term at row `t * 2048 + k * 8 + r`.
  The host then sums that array and divides by the element count.
-/
import proofs.«173334_g2000302971103860_pallasbulk_1339_3_alg».proof.Proof.Gen.KernelIdeal.Frame
import proofs.«173334_g2000302971103860_pallasbulk_1339_3_alg».proof.Proof.Err
import proofs.«173334_g2000302971103860_pallasbulk_1339_3_alg».proof.Proof.Sums
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.Charb.K

open Cert.KernelIdeal Cert.KernelIdeal.Gen
open Idealize.ShloMosaic Idealize.ShloMosaic.TcCoe Idealize.ShloMosaic.ValueIdx Idealize.SL.Sem
open Cert.Charb

variable (m : (ℓ : Loc nD τ sig) → Buf (Elt Ideal) ℓ) (ρ : Dev nD → PrngReg)

/-! ## The body's arithmetic at an index

From the two loaded [2048, 128] blocks the body forms the term of every element, regroups the 2048 rows as 256 groups
of 8, and adds the groups: at sublane `r`, lane `l` the stored value is the sum over the 256 groups `k` of the term at
row `k * 8 + r`. -/

/-- The sum over the leading axis of a [256, 8, 128] array, at sublane `r` and lane `l`. -/
theorem sum_groups (src : FVec Ideal S256x8x128 .f32) (h : S256x8x128.Reduces [0] S8x128) (hφ : FKind.Formats .f32)
    (hacc : (0x00000000#32 : BitVec 32) = FKind.add.neutral .f32 hφ) (r : Fin 8) (l : Fin 128) :
    multiReduction (F := Ideal) .add [0] S8x128 src 0x00000000#32 h hφ hacc (ix2 r l) = ∑ k : Fin 256, src (ix3 k r l) := by
  refine (Ideal.multiReduction_add_single src 0x00000000#32 h hφ hacc (ix2 r l)).trans ?_
  refine Finset.sum_congr rfl (fun k _ => congrArg src ?_)
  funext a
  match a with
  | ⟨0, _⟩ => rfl
  | ⟨1, _⟩ => rfl
  | ⟨2, _⟩ => rfl

/-- Row `k * 8 + r` of a [2048, 128] array is entry `(k, r)` of the array regrouped as [256, 8, 128]. -/
theorem regroup_apply {α : Type} (x : S2048x128.Idx → α) (h : S2048x128.ShapeCasts S256x8x128) (k : Fin 256) (r : Fin 8) (l : Fin 128) :
    shapeCast S256x8x128 x h (ix3 k r l) = x (ix2 (⟨k.val * 8 + r.val, by omega⟩ : Fin 2048) l) :=
  shapeCast_apply x h _ _ (by
    rw [Shape.rowMajor_val_three, Shape.rowMajor_val_two]
    rfl)

/-- The body's stored value at sublane `r`, lane `l`. -/
theorem pay_apply (x0 x1 : Vec Ideal S2048x128 .f32) (r : Fin 8) (l : Fin 128) :
    k0_pay1 (F := Ideal) x0 x1 (ix3 (0 : Fin 1) r l)
      = ∑ k : Fin 256, term (x0 (ix2 (⟨k.val * 8 + r.val, by omega⟩ : Fin 2048) l)) (x1 (ix2 (⟨k.val * 8 + r.val, by omega⟩ : Fin 2048) l)) := by
  unfold k0_pay1
  refine (shapeCast_ab_1ab_apply _ _ (0 : Fin 1) r l).trans ?_
  refine (sum_groups _ _ _ _ r l).trans ?_
  refine Finset.sum_congr rfl (fun k _ => ?_)
  refine (regroup_apply _ _ k r l).trans ?_
  simp only [shapeCast_self]
  rfl

/-- The body's stored block is any array that, at unit index, sublane `r`, lane `l`, holds the sum of the 256 terms. -/
theorem pay_eq (x0 x1 : Vec Ideal S2048x128 .f32) (Q : S1x8x128.Idx → EReal)
    (hQ : ∀ (u : Fin 1) (r : Fin 8) (l : Fin 128), Q (ix3 u r l)
      = ∑ k : Fin 256, term (x0 (ix2 (⟨k.val * 8 + r.val, by omega⟩ : Fin 2048) l)) (x1 (ix2 (⟨k.val * 8 + r.val, by omega⟩ : Fin 2048) l))) :
    k0_pay1 (F := Ideal) x0 x1 = Q := by
  funext j
  obtain ⟨u, r, l, rfl⟩ : ∃ (u : Fin 1) (r : Fin 8) (l : Fin 128), j = ix3 u r l := ⟨j 0, j 1, j 2, eq_ix3 j⟩
  obtain rfl : u = 0 := Subsingleton.elim _ _
  rw [hQ]
  exact pay_apply x0 x1 r l

/-! ## The grid's points and the blocks they read -/

/-- The zero offsets of a rank-3 block, as a constant function. -/
theorem hz3 : (![0, 0, 0] : Fin 3 → Nat) = fun _ => 0 := funext fun a => by fin_cases a <;> rfl
/-- The zero offsets of a rank-2 block, as a constant function. -/
theorem hz2 : (![0, 0] : Fin 2 → Nat) = fun _ => 0 := funext fun a => by fin_cases a <;> rfl

/-- The grid has 12 points. -/
theorem t_lt (t : Fin cfg0.N) : t.val < 12 := lt_of_lt_of_eq t.isLt N_0

/-- At point `t` every window's block index is `t` on the leading axis and zero on the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The first input as 24576 rows of 128 lanes. -/
abbrev X (c : Dev nD) : FVec Ideal Rows .f32 := rowsOf (m ((c.tc : Thread nD τ).loc main_arg0))
/-- The second input as 24576 rows of 128 lanes. -/
abbrev Y (c : Dev nD) : FVec Ideal Rows .f32 := rowsOf (m ((c.tc : Thread nD τ).loc main_arg1))

/-- The first window's array, after the two reshapes before the region, is the first input as rows. -/
theorem V_v2 (c : Dev nD) : (V m c main_v2 : S24576x128.Idx → EReal) = X m c := by
  show StableHlo.after hostOps0 (fun b => m (c, b)) (Proc.devRef .tc main_v2) = _
  after_results
  rfl

/-- The second window's array, after the two reshapes before the region, is the second input as rows. -/
theorem V_v3 (c : Dev nD) : (V m c main_v3 : S24576x128.Idx → EReal) = Y m c := by
  show StableHlo.after hostOps0 (fun b => m (c, b)) (Proc.devRef .tc main_v3) = _
  after_results
  rfl

/-- Row `a` of the first window's block at point `t` is row `t * 2048 + a` of the first input. -/
theorem iblk0_apply (c : Dev nD) (t : Fin cfg0.N) (a : Fin 2048) (l : Fin 128) :
    (iblk m c 0 t : Vec Ideal S2048x128 .f32) (ix2 a l) = X m c (ix2 (⟨t.val * 2048 + a.val, by have := t_lt t; omega⟩ : Fin 24576) l) := by
  obtain ⟨e0, e1, -⟩ := idx_facts t
  unfold iblk
  rw [View.read_apply]
  show V m c main_v2 _ = _
  rw [V_v2]
  refine congrArg (X m c) (funext fun d => Fin.ext ?_)
  match d with
  | ⟨0, _⟩ => show win0_0.index t (0 : Fin 2) * 2048 + 1 * a.val = t.val * 2048 + a.val; rw [e0]; omega
  | ⟨1, _⟩ => show win0_0.index t (1 : Fin 2) * 128 + 1 * l.val = l.val; rw [e1]; omega

/-- Row `a` of the second window's block at point `t` is row `t * 2048 + a` of the second input. -/
theorem iblk1_apply (c : Dev nD) (t : Fin cfg0.N) (a : Fin 2048) (l : Fin 128) :
    (iblk m c 1 t : Vec Ideal S2048x128 .f32) (ix2 a l) = Y m c (ix2 (⟨t.val * 2048 + a.val, by have := t_lt t; omega⟩ : Fin 24576) l) := by
  obtain ⟨-, -, e0, e1, -⟩ := idx_facts t
  unfold iblk
  rw [View.read_apply]
  show V m c main_v3 _ = _
  rw [V_v3]
  refine congrArg (Y m c) (funext fun d => Fin.ext ?_)
  match d with
  | ⟨0, _⟩ => show win0_1.index t (0 : Fin 2) * 2048 + 1 * a.val = t.val * 2048 + a.val; rw [e0]; omega
  | ⟨1, _⟩ => show win0_1.index t (1 : Fin 2) * 128 + 1 * l.val = l.val; rw [e1]; omega

/-! ## The output array -/

/-- The kernel's output array: at tile `t`, sublane `r`, lane `l` the tile's partial sum of the terms. -/
def P (c : Dev nD) : Vec Ideal S12x8x128 .f32 := fun i => foldK (termAt (X m c) (Y m c)) (i 0) (i 1) (i 2)

theorem P_apply (c : Dev nD) (t : Fin 12) (r : Fin 8) (l : Fin 128) :
    P m c (ix3 t r l) = foldK (termAt (X m c) (Y m c)) t r l := rfl

/-- Block `t` of the output array read at unit index, sublane `r`, lane `l` is the array at tile `t`. -/
theorem blkP_apply (c : Dev nD) (t : Fin cfg0.N) (u : Fin 1) (r : Fin 8) (l : Fin 128) :
    @Eq EReal ((((cfg0.win 2).blk t).view.read (Elt Ideal) (P m c) : S1x8x128.Idx → EReal) (ix3 u r l))
      (P m c (ix3 (⟨t.val, t_lt t⟩ : Fin 12) r l)) := by
  obtain ⟨-, -, -, -, e0, e1, e2⟩ := idx_facts t
  rw [View.read_apply]
  refine congrArg (P m c) (funext fun d => Fin.ext ?_)
  match d with
  | ⟨0, _⟩ => show win0_2.index t (0 : Fin 3) * 1 + 1 * u.val = t.val; rw [e0]; omega
  | ⟨1, _⟩ => show win0_2.index t (1 : Fin 3) * 8 + 1 * r.val = r.val; rw [e1]; omega
  | ⟨2, _⟩ => show win0_2.index t (2 : Fin 3) * 128 + 1 * l.val = l.val; rw [e2]; omega

/-- The same entry as the sum of the 256 terms of the two input blocks at point `t`. -/
theorem blkP_sum (c : Dev nD) (t : Fin cfg0.N) (u : Fin 1) (r : Fin 8) (l : Fin 128) :
    @Eq EReal ((((cfg0.win 2).blk t).view.read (Elt Ideal) (P m c) : S1x8x128.Idx → EReal) (ix3 u r l))
      (∑ k : Fin 256, term ((iblk m c 0 t : Vec Ideal S2048x128 .f32) (ix2 (⟨k.val * 8 + r.val, by omega⟩ : Fin 2048) l))
          ((iblk m c 1 t : Vec Ideal S2048x128 .f32) (ix2 (⟨k.val * 8 + r.val, by omega⟩ : Fin 2048) l))) := by
  refine (blkP_apply m c t u r l).trans ?_
  rw [P_apply]
  unfold foldK
  refine Finset.sum_congr rfl (fun k _ => ?_)
  rw [iblk0_apply m c t ⟨k.val * 8 + r.val, by omega⟩ l, iblk1_apply m c t ⟨k.val * 8 + r.val, by omega⟩ l]
  unfold termAt
  have e : (⟨t.val * 2048 + k.val * 8 + r.val, by have := t_lt t; omega⟩ : Fin 24576) = ⟨t.val * 2048 + (k.val * 8 + r.val), by have := t_lt t; omega⟩ :=
    Fin.ext (Nat.add_assoc _ _ _)
  rw [e]

/-- What point `t` writes back is block `t` of the output array. -/
theorem flushed_eq (c : Dev nD) (t : Fin cfg0.N) :
    (dats m 0 c).flushed 2 t = ((cfg0.win 2).blk t).view.read (Elt Ideal) (P m c) := by
  show (cfg0.win 2).cut (grid0.coords t) ((dats m 0 c).after 2 t) = _
  rw [after0_2]
  unfold out0_2
  rw [View.canon_unit_zero hz3]
  simp only [View.ld_unit_zero (S := S2048x128) hz2]
  exact pay_eq (iblk m c 0 t) (iblk m c 1 t) _ (blkP_sum m c t)

/-- Every index of the output array is in the block of the point named by its tile coordinate. -/
theorem cover (i : S12x8x128.Idx) : ∃ t : Fin cfg0.N, (cfg0.win 2).flush t = true ∧ i ∈ ((cfg0.win 2).blk t).view.set := by
  have hi0 : (i 0).val < 12 := (i 0).isLt
  have hi1 : (i 1).val < 8 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, e0, e1, e2⟩ := idx_facts t
  refine ⟨t, flush0_2 t, ?_⟩
  show i ∈ ((View.whole main_v4).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 8 ≤ (i 1).val ∧ (i 1).val < win0_2.index t (1 : Fin 3) * 8 + 8; rw [e1]; omega
  | ⟨2, _⟩ => show win0_2.index t (2 : Fin 3) * 128 ≤ (i 2).val ∧ (i 2).val < win0_2.index t (2 : Fin 3) * 128 + 128; rw [e2]; omega

/-- The output array after the run. -/
theorem final (c : Dev nD) : (dats m 0 c).arrAt 2 cfg0.N = P m c :=
  (dats m 0 c).arrAt_eq_of_cover 2 (P m c) (fun t _ => flushed_eq m c t) cover

/-! ## The result -/

/-- The host's last two steps on the output array: the mean of all the terms. -/
theorem result (c : Dev nD) :
    Pipeline.afterTail₀ cfgs (dats m) 0 (V0 m) [hostOps1] c main_v6 = mean (total (X m c) (Y m c)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.tc.devRef main_v4) = P m c :=
    (Pipeline.withArrays_arr spec0 launch0.win.arr_inj c _ _ 2).trans (final m c)
  rw [hA]
  exact (tail_eq_mean (P m c) _ _).trans (congrArg mean (sum_foldK _ _ (fun t r l => P_apply m c t r l)))

/-- Every weakly fair execution of the kernel's program ends with its result at the mean of all the terms of the two
    inputs as rows, and the inputs unchanged. -/
theorem run : θ_run (defs (F := Ideal)) (onTc (τ := τ) (main (F := Ideal))) ⟨m, fun _ => 0, ρ⟩ (fun r => ∀ c : Dev nD,
      r.2.mem ((c.tc : Thread nD τ).loc main_v6)
          = mean (total (rowsOf (m ((c.tc : Thread nD τ).loc main_arg0))) (rowsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v6 (Pipeline.mem_restRefs_of main_v6 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Charb.K

end
-- ==== Proof.RRun.lean ====
/-
  The reference program's kernel body, run once per kind of step.  Step `t` of a half reads one tile (4096 rows) of both
  inputs and folds the tile's terms to an [8, 128] partial (the sum over the 512 groups of 8 rows); at the half's first
  step it stores the partial into the output block, at a later step it adds it to what the block holds.
-/
import proofs.«173334_g2000302971103860_pallasbulk_1339_3_alg».proof.Proof.Gen.ReferenceIdeal.Frame
import proofs.«173334_g2000302971103860_pallasbulk_1339_3_alg».proof.Proof.Gen.ReferenceIdeal.Skeleton
import Idealize.ShloMosaic.Lib.Pipeline.Value

set_option maxRecDepth 16384

noncomputable section

namespace Cert.Charb.R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole buffer -/

abbrev rIn : Rect S4096x128 := Rect.unit (s := S4096x128) ![0, 0] S4096x128.size inb_S4096x128_S4096x128_0_0
abbrev rOut : Rect S8x128 := Rect.unit (s := S8x128) ![0, 0] S8x128.size inb_S8x128_S8x128_0_0

/-- The whole-buffer rectangle's offsets are zero. -/
theorem off0 : (![0, 0] : Fin 2 → ℕ) = fun _ => 0 := funext fun a => by fin_cases a <;> rfl

/-- One store through the whole-buffer rectangle covers every index of the output block. -/
theorem cover_out (w : Vec F S8x128 .f32) (y : S8x128.Idx) :
    ∃ pc ∈ ([⟨rOut, w⟩] : List (View.Piece (Elt F) S8x128 .f32)), y ∈ pc.1.set :=
  View.cover_of_tiled [⟨rOut, w⟩] S8x128.size (by rfl) y

/-! ## The body's triple, by the step within the half -/

set_option maxHeartbeats 1000000 in
/-- First step of a half (the first conditional taken, the second not): on whole staging memrefs, the inputs' at
    contents `x0`, `x1` and the output's at anything, the body ends with the inputs' as they were and the output's
    at the tile's folded partial. -/
theorem run_first (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S8x128 .f32) (harg4 : arg4.IsWhole)
    (h1 : k0_cond1 i = 1#1) (h2 : ¬ k0_cond2 i = 1#1) (x0 x1 : Vec F S4096x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) Set.univ (cc0__charbonnier_kernel i arg2 harg2 arg3 harg3 arg4 harg4) K := by
  simp only [cc0__charbonnier_kernel_eq_skeleton]; unfold cc0__charbonnier_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off0, View.readAt_eq_ld, View.readAt_eq_ld,
    View.ld_unit_zero off0, View.ld_unit_zero off0]

set_option maxHeartbeats 1000000 in
/-- A later step of a half (the second conditional taken, the first not): the output's memref holds the running
    partial `xo`; the body ends with it at `xo` plus the tile's folded partial. -/
theorem run_later (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S8x128 .f32) (harg4 : arg4.IsWhole)
    (h1 : ¬ k0_cond1 i = 1#1) (h2 : k0_cond2 i = 1#1) (x0 x1 : Vec F S4096x128 .f32) (xo : Vec F S8x128 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (k0_pay2 x0 x1 xo)) -∗ K ⟨⟩))
      ⊢ wp frame (wpE (defs₀ (F := F)) Variants.none c none) Set.univ (cc0__charbonnier_kernel i arg2 harg2 arg3 harg3 arg4 harg4) K := by
  simp only [cc0__charbonnier_kernel_eq_skeleton]; unfold cc0__charbonnier_kernel_skel
  unfold owns
  iintro ⟨⟨%f0, %hf0, H0⟩, ⟨%f1, %hf1, H1⟩, ⟨%f2, %hf2, H2⟩, Hk⟩
  subst hf0 hf1 hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off0, View.readAt_eq_ld, View.readAt_eq_ld,
    View.readAt_eq_ld, View.ld_unit_zero off0, View.ld_unit_zero off0, View.ld_unit_zero off0]

end Cert.Charb.R

end
-- ==== Proof.RBody.lean ====
/-
  The reference program's pipeline.  Its grid is 2 halves by 3 steps; step `t` of half `s` handles tile `3 s + t`.
  The output block of a half accumulates across the half's three steps and is written back after the last; so what the
  output's staging buffer holds after each point is defined by recursion on the point, and the buffer the body finds
  at a later step is what the point before left.  From that: the body obligation at every point, the run, the frame.
-/
import proofs.«173334_g2000302971103860_pallasbulk_1339_3_alg».proof.Proof.RRun

set_option maxRecDepth 16384

noncomputable section

namespace Cert.Charb.R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which step a point is -/

/-- The first conditional is taken exactly at the first step of a half: the points 0 and 3. -/
theorem cond1_iff : ∀ t : Fin cfg0.N, k0_cond1 (grid0.coords t) = 1#1 ↔ t.val % 3 = 0 :=
  (by decide +kernel : ∀ t : Fin grid0.N, k0_cond1 (grid0.coords t) = 1#1 ↔ t.val % 3 = 0)
/-- The second at every other point. -/
theorem cond2_iff : ∀ t : Fin cfg0.N, k0_cond2 (grid0.coords t) = 1#1 ↔ ¬ t.val % 3 = 0 :=
  (by decide +kernel : ∀ t : Fin grid0.N, k0_cond2 (grid0.coords t) = 1#1 ↔ ¬ t.val % 3 = 0)

/-- One of the two conditionals is taken at every grid coordinate, so the output window is never idle. -/
theorem live2 : ∀ i : grid0.Coords, cfg0.idle 2 i = false := by
  intro i
  have hb : (i 1).val < 3 := (i 1).isLt
  have h : (i 1).val = 0 ∨ (i 1).val = 1 ∨ (i 1).val = 2 := by omega
  show (!(k0_cond1 i == 1#1) && !(k0_cond2 i == 1#1)) = false
  unfold k0_cond1 k0_cond2
  rcases h with h | h | h <;> rw [h] <;> decide

variable (m : (ℓ : Loc nD τ sig) → Buf (Elt F) ℓ) (ρ : Dev nD → PrngReg)

/-! ## What the output's staging buffer holds after each point -/

/-- The running partial after the body at position `n`: the tile's folded partial at the first step of a half, and at a
    later step that added to what the point before left (the buffer is not written back in between). -/
def accAt (c : Dev nD) : (n : ℕ) → n < cfg0.N → Vec F S8x128 .f32
  | 0, hn => k0_pay1 (iblk m c 0 ⟨0, hn⟩) (iblk m c 1 ⟨0, hn⟩)
  | n + 1, hn =>
    if (n + 1) % 3 = 0 then k0_pay1 (iblk m c 0 ⟨n + 1, hn⟩) (iblk m c 1 ⟨n + 1, hn⟩)
    else k0_pay2 (iblk m c 0 ⟨n + 1, hn⟩) (iblk m c 1 ⟨n + 1, hn⟩) (accAt c n (Nat.lt_of_succ_lt hn))

/-- At the first step of a half. -/
theorem accAt_first (c : Dev nD) (t : Fin cfg0.N) (h0 : t.val % 3 = 0) :
    accAt m c t.val t.isLt = k0_pay1 (iblk m c 0 t) (iblk m c 1 t) := by
  obtain ⟨n, hn⟩ := t
  cases n with
  | zero => exact rfl
  | succ n => exact (if_pos h0).trans rfl

/-- At a later step: over what the point before left. -/
theorem accAt_later (c : Dev nD) (t : Fin cfg0.N) (h0 : ¬ t.val % 3 = 0) :
    accAt m c t.val t.isLt
      = k0_pay2 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The arrays as the region finds them; after the body each input's buffer at its block and the output's at the
    running partial; the invariant is the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At the first step of a half the output's buffer is fresh (the grid's first point, or the point after a write-back):
    it holds anything. -/
theorem before0_2_first (c : Dev nD) (t : Fin cfg0.N) (h0 : t.val % 3 = 0) (d) : (dats m 0 c).before 2 t d = d := by
  have hN : t.val < 6 := lt_of_lt_of_eq t.isLt (show cfg0.N = 6 from N_0)
  refine Dat.before_out_reset _ 2 rfl t ?_ d
  by_cases ht : t.val = 0
  · exact Or.inl ht
  · exact Or.inr ⟨ht, (flush0_2 _).mpr (by dsimp only; omega)⟩

/-- At a later step it holds what the body left at the point before: no write-back in between, the window live and
    uncut. -/
theorem before0_2_later (c : Dev nD) (t : Fin cfg0.N) (h0 : ¬ t.val % 3 = 0) (d) :
    (dats m 0 c).before 2 t d = accAt m c (t.val - 1) (Nat.lt_of_le_of_lt (Nat.sub_le _ _) t.isLt) := by
  have hN : t.val < 6 := lt_of_lt_of_eq t.isLt (show cfg0.N = 6 from N_0)
  rw [Dat.before_out_kept _ 2 rfl t (by omega) (Bool.eq_false_iff.mpr fun h => by have := (flush0_2 _).mp h; dsimp only at this; omega)
    live2 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 800000 in
/-- The body at any point: the inputs' memrefs hold their blocks; the point is a first step or a later one, and the
    output's memref holds anything or the running partial accordingly; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 3 = 0
  · rw [accAt_first m c t h0]
    iintro ⟨HΦ, Ho, ⟨%d0, H0⟩, ⟨%d1, H1⟩, ⟨%d2, H2⟩⟩
    iapply (run_first c (grid0.coords t) _ _ _ _ _ _ ((cond1_iff t).mpr h0) (fun h => (cond2_iff t).mp h h0)
      (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_later m c t h0]
    simp only [before0_2_later m c t h0]
    iintro ⟨HΦ, Ho, ⟨%d0, H0⟩, ⟨%d1, H1⟩, ⟨%d2, H2⟩⟩
    iapply (run_later c (grid0.coords t) _ _ _ _ _ _ (fun h => h0 ((cond1_iff t).mp h)) ((cond2_iff t).mpr h0)
      (iblk m c 0 t) (iblk m c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  have h2 : idle0 2 (grid0.coords t) = false := live2 _
  simp only [h2]
  exact sound_body m c t

/-! ## The run and the frame -/

set_option backward.isDefEq.respectTransparency.types false in
/-- Every weakly fair execution of the program terminates, and every final state has every array of the pipeline at
    what the proof data gives and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Charb.R

end
-- ==== Proof.RPay.lean ====
/-
  The reference kernel's two payloads read at an index, over the extended reals.  The fold of a [4096, 128] tile to
  [8, 128] views the tile as 512 groups of 8 rows and adds the groups: at sublane `r`, lane `l` it is the sum over the
  512 groups `k` of the term at row `k * 8 + r`.  The accumulating store's payload is the block plus that fold.
-/
import proofs.«173334_g2000302971103860_pallasbulk_1339_3_alg».proof.Proof.Gen.ReferenceIdeal.Skeleton
import proofs.«173334_g2000302971103860_pallasbulk_1339_3_alg».proof.Proof.Err
import Idealize.ShloMosaic.PureOps.Ideal.Laws
import Idealize.ShloMosaic.Lib.Pipeline.Value
import Idealize.ShloMosaic.Lib.ValueIdx

noncomputable section

namespace Cert.Charb.R

open Cert.ReferenceIdeal Cert.ReferenceIdeal.Gen
open Idealize.ShloMosaic Idealize.ShloMosaic.ValueIdx
open Cert.Charb

/-- Group `k`, sublane `r` of a tile is its row `k * 8 + r`. -/
abbrev rowOf (k : Fin 512) (r : Fin 8) : Fin 4096 := ⟨k.val * 8 + r.val, by omega⟩

/-- The tile's fold at sublane `r`, lane `l`: the sum over the groups of the term at the group's row `r`. -/
theorem pay1_apply (x0 x1 : FVec Ideal S4096x128 .f32) (r : Fin 8) (l : Fin 128) :
    k0_pay1 (F := Ideal) x0 x1 (ix2 r l) = ∑ k : Fin 512, term (x0 (ix2 (rowOf k r) l)) (x1 (ix2 (rowOf k r) l)) := by
  unfold k0_pay1
  refine (Ideal.multiReduction_add_single _ 0x00000000#32 reduces_S512x8x128_S8x128 (.inl rfl) rfl (ix2 r l)).trans ?_
  refine Finset.sum_congr rfl fun k _ => ?_
  refine (shapeCast_apply _ shapeCasts_S4096x128_S512x8x128 _ (ix2 (rowOf k r) l) ?_).trans ?_
  · rw [Shape.rowMajor_val_two, Shape.rowMajor_val_three]
    show (k.val * 8 + r.val) * 128 + l.val = (k.val * 8 + r.val) * 128 + l.val
    rfl
  · simp only [shapeCast_self]
    rfl

/-- The accumulating payload: what the block held plus the tile's fold. -/
theorem pay2_apply (x0 x1 : FVec Ideal S4096x128 .f32) (xo : FVec Ideal S8x128 .f32) (j : S8x128.Idx) :
    k0_pay2 (F := Ideal) x0 x1 xo j = xo j + k0_pay1 (F := Ideal) x0 x1 j := by
  unfold k0_pay2
  simp only [shapeCast_self]
  rfl

end Cert.Charb.R

end
-- ==== Proof.RValue.lean ====
/-
  The reference's result.  Tile `t` (of 6) covers rows `t * 4096 .. t * 4096 + 4095` of both inputs; its fold at sublane
  `r`, lane `l` is the sum over the 512 groups `k` of the term at row `t * 4096 + k * 8 + r`.  Half `s` of the grid adds the
  folds of tiles `3 s`, `3 s + 1`, `3 s + 2` in that order and writes the sum back as rows `8 s .. 8 s + 7` of a [16, 128]
  array.  The host then sums that array and divides by the element count.
-/
import proofs.«173334_g2000302971103860_pallasbulk_1339_3_alg».proof.Proof.RBody
import proofs.«173334_g2000302971103860_pallasbulk_1339_3_alg».proof.Proof.RPay
import proofs.«173334_g2000302971103860_pallasbulk_1339_3_alg».proof.Proof.Err
import proofs.«173334_g2000302971103860_pallasbulk_1339_3_alg».proof.Proof.Sums
import Idealize.ShloMosaic.Lib.Pipeline.Value
import Idealize.ShloMosaic.Lib.ValueIdx
import Idealize.ShloMosaic.Lib.StableHlo.Run

set_option maxRecDepth 16384

noncomputable section

namespace Cert.Charb.R

open Cert.ReferenceIdeal Cert.ReferenceIdeal.Gen
open Idealize.ShloMosaic Idealize.ShloMosaic.TcCoe Idealize.ShloMosaic.ValueIdx Idealize.SL.Sem
open Idealize.ShloMosaic.Pipeline (Dat)
open Cert.Charb

variable (m : (ℓ : Loc nD τ sig) → Buf (Elt Ideal) ℓ) (ρ : Dev nD → PrngReg)

/-! ## The inputs as the region finds them -/

/-- The two inputs as rows of lanes. -/
abbrev X (c : Dev nD) : FVec Ideal Rows .f32 := rowsOf (m ((c : Thread nD τ).loc main_arg0))
abbrev Y (c : Dev nD) : FVec Ideal Rows .f32 := rowsOf (m ((c : Thread nD τ).loc main_arg1))

/-- The two reshapes before the region leave each window's array at its input as rows. -/
theorem V_v2 (c : Dev nD) : (V m c main_v2 : S24576x128.Idx → Ideal .f32) = X m c := by
  show StableHlo.after hostOps0 (fun b => m (c, b)) (Proc.devRef .tc main_v2) = _
  after_results
  rfl
theorem V_v3 (c : Dev nD) : (V m c main_v3 : S24576x128.Idx → Ideal .f32) = Y m c := by
  show StableHlo.after hostOps0 (fun b => m (c, b)) (Proc.devRef .tc main_v3) = _
  after_results
  rfl

/-! ## The tiles -/

theorem lt6 (t : Fin cfg0.N) : t.val < 6 := lt_of_lt_of_eq t.isLt (show cfg0.N = 6 from N_0)

/-- Point `n` of the grid. -/
abbrev pt (n : ℕ) (h : n < 6) : Fin cfg0.N := ⟨n, lt_of_lt_of_eq h (show cfg0.N = 6 from N_0).symm⟩

/-- Row `a` of tile `t`. -/
abbrev tileRow (t : Fin cfg0.N) (a : Fin 4096) : Fin 24576 := ⟨t.val * 4096 + a.val, by have := lt6 t; omega⟩

/-- The index maps over the grid: both inputs' block index is the point's number, the output's its half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 3 ∧ win0_2.index t (1 : Fin 2) = 0 :=
  (by decide +kernel : ∀ t : Fin grid0.N, _)

/-- Window 0's block at point `t` is tile `t` of the first input. -/
theorem iblk0_apply (c : Dev nD) (t : Fin cfg0.N) (a : Fin 4096) (l : Fin 128) :
    iblk m c 0 t (ix2 a l) = V m c main_v2 (ix2 (tileRow t a) l) := by
  obtain ⟨e0, e1, -⟩ := idx_facts t
  show V m c main_v2 (((cfg0.win 0).blk t).view.emb (ix2 a l)) = V m c main_v2 (ix2 (tileRow t a) l)
  refine congrArg _ (funext fun b => Fin.ext ?_)
  match b with
  | ⟨0, _⟩ => show win0_0.index t (0 : Fin 2) * 4096 + 1 * a.val = t.val * 4096 + a.val; omega
  | ⟨1, _⟩ => show win0_0.index t (1 : Fin 2) * 128 + 1 * l.val = l.val; omega

/-- Window 1's block at point `t` is tile `t` of the second input. -/
theorem iblk1_apply (c : Dev nD) (t : Fin cfg0.N) (a : Fin 4096) (l : Fin 128) :
    iblk m c 1 t (ix2 a l) = V m c main_v3 (ix2 (tileRow t a) l) := by
  obtain ⟨-, -, e2, e3, -⟩ := idx_facts t
  show V m c main_v3 (((cfg0.win 1).blk t).view.emb (ix2 a l)) = V m c main_v3 (ix2 (tileRow t a) l)
  refine congrArg _ (funext fun b => Fin.ext ?_)
  match b with
  | ⟨0, _⟩ => show win0_1.index t (0 : Fin 2) * 4096 + 1 * a.val = t.val * 4096 + a.val; omega
  | ⟨1, _⟩ => show win0_1.index t (1 : Fin 2) * 128 + 1 * l.val = l.val; omega

/-- The body's fold of the two blocks at point `t` is tile `t`'s fold of the terms. -/
theorem tile_fold (c : Dev nD) (t : Fin cfg0.N) (r : Fin 8) (l : Fin 128) :
    k0_pay1 (F := Ideal) (iblk m c 0 t) (iblk m c 1 t) (ix2 r l) = foldR (termAt (X m c) (Y m c)) ⟨t.val, lt6 t⟩ r l := by
  refine (pay1_apply _ _ r l).trans ?_
  unfold foldR
  refine Finset.sum_congr rfl fun k _ => ?_
  unfold termAt
  rw [iblk0_apply, iblk1_apply, V_v2, V_v3]
  have e : tileRow t (rowOf k r) = (⟨t.val * 4096 + k.val * 8 + r.val, by have := lt6 t; omega⟩ : Fin 24576) :=
    Fin.ext (by show t.val * 4096 + (k.val * 8 + r.val) = t.val * 4096 + k.val * 8 + r.val; omega)
  rw [e]

/-! ## The running contents over a half -/

/-- The running contents depend on the position only. -/
theorem accAt_congr (c : Dev nD) {n n' : ℕ} (h : n = n') (hn : n < cfg0.N) (hn' : n' < cfg0.N) :
    accAt m c n hn = accAt m c n' hn' := by subst h; rfl

/-- After a half's first step: that tile's fold. -/
theorem acc_first (c : Dev nD) (t : Fin cfg0.N) (h0 : t.val % 3 = 0) (r : Fin 8) (l : Fin 128) :
    accAt m c t.val t.isLt (ix2 r l) = foldR (termAt (X m c) (Y m c)) ⟨t.val, lt6 t⟩ r l := by
  rw [accAt_first m c t h0]
  exact tile_fold m c t r l

/-- After a later step: what the step before left plus this tile's fold. -/
theorem acc_later (c : Dev nD) (t t' : Fin cfg0.N) (ht : t.val = t'.val + 1) (h0 : ¬ t.val % 3 = 0) (r : Fin 8) (l : Fin 128) :
    accAt m c t.val t.isLt (ix2 r l)
      = accAt m c t'.val t'.isLt (ix2 r l) + foldR (termAt (X m c) (Y m c)) ⟨t.val, lt6 t⟩ r l := by
  rw [accAt_later m c t h0]
  refine (pay2_apply _ _ _ _).trans ?_
  rw [accAt_congr m c (show t.val - 1 = t'.val by omega) _ t'.isLt]
  exact congrArg _ (tile_fold m c t r l)

/-- After a half's last step: the three tiles' folds, added in order. -/
theorem acc_half (c : Dev nD) (s : Fin 2) (r : Fin 8) (l : Fin 128) :
    accAt m c (3 * s.val + 2) (pt (3 * s.val + 2) (by omega)).isLt (ix2 r l)
      = (foldR (termAt (X m c) (Y m c)) ⟨3 * s.val, by omega⟩ r l + foldR (termAt (X m c) (Y m c)) ⟨3 * s.val + 1, by omega⟩ r l)
        + foldR (termAt (X m c) (Y m c)) ⟨3 * s.val + 2, by omega⟩ r l := by
  have h2 := acc_later m c (pt (3 * s.val + 2) (by omega)) (pt (3 * s.val + 1) (by omega)) rfl (by show ¬ (3 * s.val + 2) % 3 = 0; omega) r l
  have h1 := acc_later m c (pt (3 * s.val + 1) (by omega)) (pt (3 * s.val) (by omega)) rfl (by show ¬ (3 * s.val + 1) % 3 = 0; omega) r l
  have h0 := acc_first m c (pt (3 * s.val) (by omega)) (by show (3 * s.val) % 3 = 0; omega) r l
  exact h2.trans (congrArg (· + _) (h1.trans (congrArg (· + _) h0)))

/-! ## The output array after the run -/

/-- What the [16, 128] array ends holding: row `i` is sublane `i % 8` of half `i / 8`'s contents after its last step. -/
def Q (c : Dev nD) : FVec Ideal S16x128 .f32 := fun i =>
  accAt m c (3 * ((i 0).val / 8) + 2) (lt_of_lt_of_eq (by have := idx2_lt0 i; omega) (show cfg0.N = 6 from N_0).symm)
    (ix2 (⟨(i 0).val % 8, Nat.mod_lt _ (by decide)⟩ : Fin 8) (⟨(i 1).val, idx2_lt1 i⟩ : Fin 128))

/-- What a writing-back point writes is its block of `Q`. -/
theorem flushed_eq (c : Dev nD) (t : Fin cfg0.N) (hf : (cfg0.win 2).flush t = true) :
    (dats m 0 c).flushed 2 t = ((cfg0.win 2).blk t).view.read (Elt Ideal) (Q m c) := by
  have h2 : t.val % 3 = 2 := (flush0_2 t).mp hf
  have h6 := lt6 t
  obtain ⟨-, -, -, -, e4, e5⟩ := idx_facts t
  show (cfg0.win 2).cut (grid0.coords t) ((dats m 0 c).after 2 t) = _
  rw [after0_2]
  funext j
  have hj0 : (j 0).val < 8 := (j 0).isLt
  have hj1 : (j 1).val < 128 := (j 1).isLt
  show accAt m c t.val t.isLt j = Q m c (((cfg0.win 2).blk t).view.emb j)
  have E0 : ((((cfg0.win 2).blk t).view.emb j) 0).val = t.val / 3 * 8 + (j 0).val := by
    show win0_2.index t (0 : Fin 2) * 8 + 1 * (j 0).val = _; omega
  have E1 : ((((cfg0.win 2).blk t).view.emb j) 1).val = (j 1).val := by
    show win0_2.index t (1 : Fin 2) * 128 + 1 * (j 1).val = _; omega
  unfold Q
  rw [accAt_congr m c (show 3 * (((((cfg0.win 2).blk t).view.emb j) 0).val / 8) + 2 = t.val by rw [E0]; omega) _ t.isLt]
  refine congrArg _ (funext fun b => Fin.ext ?_)
  match b with
  | ⟨0, _⟩ => show (j 0).val = ((((cfg0.win 2).blk t).view.emb j) 0).val % 8; rw [E0]; omega
  | ⟨1, _⟩ => show (j 1).val = ((((cfg0.win 2).blk t).view.emb j) 1).val; rw [E1]

/-- An index of the array is in point `t`'s block iff each coordinate is in the block's range on its axis. -/
theorem mem_blk (t : Fin cfg0.N) (i : S16x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v4).slice (win0_2.rect t)).set ↔ _
  rw [View.set_slice_whole, Rect.mem_set_unit]
  exact Iff.rfl

/-- Every row of the array is in the block of its half's last point, which writes back. -/
theorem cover (i : S16x128.Idx) : ∃ t : Fin cfg0.N, (cfg0.win 2).flush t = true ∧ i ∈ ((cfg0.win 2).blk t).view.set := by
  have hi0 : (i 0).val < 16 := idx2_lt0 i
  have hi1 : (i 1).val < 128 := idx2_lt1 i
  have hv : (pt (3 * ((i 0).val / 8) + 2) (by omega)).val = 3 * ((i 0).val / 8) + 2 := rfl
  obtain ⟨-, -, -, -, e4, e5⟩ := idx_facts (pt (3 * ((i 0).val / 8) + 2) (by omega))
  refine ⟨pt (3 * ((i 0).val / 8) + 2) (by omega), (flush0_2 _).mpr (by rw [hv]; omega), ?_⟩
  rw [mem_blk]
  intro a
  match a with
  | ⟨0, _⟩ =>
    show win0_2.index _ (0 : Fin 2) * 8 ≤ (i 0).val ∧ (i 0).val < win0_2.index _ (0 : Fin 2) * 8 + 8
    rw [e4, hv]; omega
  | ⟨1, _⟩ =>
    show win0_2.index _ (1 : Fin 2) * 128 ≤ (i 1).val ∧ (i 1).val < win0_2.index _ (1 : Fin 2) * 128 + 128
    rw [e5]; omega

/-- The array after the run. -/
theorem final (c : Dev nD) : (dats m 0 c).arrAt 2 cfg0.N = Q m c :=
  (dats m 0 c).arrAt_eq_of_cover 2 (Q m c) (fun t hf => flushed_eq m c t hf) cover

/-- Row `s * 8 + r` of it: half `s`'s three folds at sublane `r`. -/
theorem Q_apply (c : Dev nD) (s : Fin 2) (r : Fin 8) (l : Fin 128) :
    Q m c (ix2 (⟨s.val * 8 + r.val, by omega⟩ : Fin 16) l)
      = (foldR (termAt (X m c) (Y m c)) ⟨3 * s.val, by omega⟩ r l + foldR (termAt (X m c) (Y m c)) ⟨3 * s.val + 1, by omega⟩ r l)
        + foldR (termAt (X m c) (Y m c)) ⟨3 * s.val + 2, by omega⟩ r l := by
  refine Eq.trans ?_ (acc_half m c s r l)
  unfold Q
  show accAt m c (3 * ((s.val * 8 + r.val) / 8) + 2) _ (ix2 (⟨(s.val * 8 + r.val) % 8, _⟩ : Fin 8) (⟨l.val, _⟩ : Fin 128)) = _
  rw [accAt_congr m c (show 3 * ((s.val * 8 + r.val) / 8) + 2 = 3 * s.val + 2 by omega) _ (pt (3 * s.val + 2) (by omega)).isLt]
  refine congrArg _ (funext fun b => Fin.ext ?_)
  match b with
  | ⟨0, _⟩ => show (s.val * 8 + r.val) % 8 = r.val; omega
  | ⟨1, _⟩ => rfl

/-! ## The result -/

/-- The host lines after the region: the sum of the array from zero, divided by the count. -/
theorem result (c : Dev nD) :
    Pipeline.afterTail₀ cfgs (dats m) 0 (V0 m) [hostOps1] c main_v6 = mean (total (X m c) (Y m c)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v4) = Q m c :=
    (Pipeline.withArrays_arr spec0 launch0.win.arr_inj c _ _ 2).trans (final m c)
  rw [hA]
  refine (tail_eq_mean _ _ _).trans ?_
  exact congrArg mean (sum_foldR (termAt (X m c) (Y m c)) (Q m c) (Q_apply m c))

/-- Every weakly fair execution of the reference's program ends with its result at the mean of all the terms of the two
    inputs as rows, and the inputs unchanged. -/
theorem run : θ_run (defs (F := Ideal)) (onTc (τ := τ) (main (F := Ideal))) ⟨m, fun _ => 0, ρ⟩ (fun r => ∀ c : Dev nD,
      r.2.mem ((c.tc : Thread nD τ).loc main_v6)
          = mean (total (rowsOf (m ((c.tc : Thread nD τ).loc main_arg0))) (rowsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v6 (Pipeline.mem_restRefs_of main_v6 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Charb.R

end
-- ==== Proof.lean ====
/-
  The certificate of a Charbonnier loss, mean (sqrt ((x - y)^2 + eps)) over two f32[16, 3, 256, 256] inputs.

  Both programs lay each input out as 24576 rows of 128 lanes and reduce in two stages.  The kernel's grid has 12 tiles of
  2048 rows; each tile is folded to 8 sublane rows by adding its 256 groups of 8 rows, the 12 partials form a
  [12, 8, 128] array, and the host sums it and divides by the element count.  The reference's grid has 2 halves of 3 tiles
  of 4096 rows; each tile is folded to 8 rows by adding its 512 groups, a half's three folds are added into one
  [8, 128] block, the two blocks form a [16, 128] array, and the host sums it and divides by the same count.  Every element's
  term enters each program's grand sum exactly once, with the same eps word and the same divisor word, so over the
  extended reals the two results are one number: only commutativity and associativity of addition are used, which hold
  at the infinities too, so the finiteness precondition is never opened.

  The kernel's two frames are the generated ones.  The reference's output block is carried across the steps of a half,
  so its frame is proved by hand: the body run once for a first step and once for a later step, the block's contents
  by recursion on the grid point.  No ideal-pass rewrite was applied, so `preserves` has nothing to state.
-/
import proofs.«173334_g2000302971103860_pallasbulk_1339_3_alg».proof.Defs
import proofs.«173334_g2000302971103860_pallasbulk_1339_3_alg».proof.Proof.Gen.Kernel
import proofs.«173334_g2000302971103860_pallasbulk_1339_3_alg».proof.Proof.Gen.Kernel.Frame
import proofs.«173334_g2000302971103860_pallasbulk_1339_3_alg».proof.Proof.Gen.KernelIdeal
import proofs.«173334_g2000302971103860_pallasbulk_1339_3_alg».proof.Proof.Gen.KernelIdeal.Frame
import proofs.«173334_g2000302971103860_pallasbulk_1339_3_alg».proof.Proof.Gen.ReferenceIdeal
import proofs.«173334_g2000302971103860_pallasbulk_1339_3_alg».proof.Proof.Gen.Pre_finite_inputs
import proofs.«173334_g2000302971103860_pallasbulk_1339_3_alg».proof.Proof.KValue
import proofs.«173334_g2000302971103860_pallasbulk_1339_3_alg».proof.Proof.RValue
import Idealize.ShloMosaic.Adequacy
import Idealize.ShloMosaic.Init

noncomputable section

namespace Cert.Proof

open Idealize.ShloMosaic Idealize.SL.Sem

/-- The kernel's program runs and keeps its arguments, at the word level. -/
theorem frame_kernel : Cert.frame_Kernel := fun m ρ _ => Cert.Kernel.Gen.frame m ρ

/-- The same read over the extended reals. -/
theorem frame_kernelIdeal : Cert.frame_KernelIdeal := fun m ρ _ => Cert.KernelIdeal.Gen.frame m ρ

/-- The reference's program runs and keeps its arguments. -/
theorem frame_referenceIdeal : Cert.frame_ReferenceIdeal := fun m ρ _ => Cert.Charb.R.frame m ρ

/-- From memories that agree on the two inputs both programs end at the mean of all the terms of those inputs. -/
theorem algebraic : Cert.algebraic_KernelIdeal_ReferenceIdeal := by
  intro m ρ m' ρ' _ hagree
  refine ⟨_, Cert.Charb.K.run m ρ, ?_⟩
  refine (θ_run Cert.ReferenceIdeal.defs _ _).mono (fun r h c => ⟨?_, (h c).2.1, (h c).2.2⟩) (Cert.Charb.R.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
